-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : IVec S100000 32) (main_arg1 : IVec S2x800000 32) (main_arg2 : FVec F S100000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 91
  | .vmem => 27
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S100000x128, .f32⟩
  | .hbm, ⟨66, _⟩ => ⟨S800000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S100000x128, .f32⟩
  | .hbm, ⟨84, _⟩ => ⟨S800000x1, .i32⟩
  | .hbm, ⟨85, _⟩ => ⟨S100000x128, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S100000x1_S100000x128_1_0_n_n_0_1_1128_wf : GatherDims.WF S100000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v31) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S100000x128, .f32⟩
  | .hbm, ⟨75, _⟩ => ⟨S800000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S100000x128, .f32⟩
  | .hbm, ⟨102, _⟩ => ⟨S800000x1, .i32⟩
  | .hbm, ⟨103, _⟩ => ⟨S100000x128, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S128x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S100000x1_S100000x128_1_0_n_n_0_1_1128_wf : GatherDims.WF S100000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Layer.lean ====
/-
  One layer of the network as a function on matrices of extended reals.

  A layer takes the neighbourhood means `a` and the node features `h` (both R rows of 128), two square weight
  matrices `wl`, `wr` (128 by 128) and a bias `b` (128 entries), and gives, at row `p` and column `q`,

      (sum over k of a(p,k) * wl(q,k)  +  b(q))  +  sum over k of h(p,k) * wr(q,k),

  clipped below at zero when the layer has its rectifier.  Both weight matrices enter transposed: the sum runs over
  their SECOND coordinate.  The association of the two additions is part of the definition: on the extended reals
  addition is not cancellative at the infinities, so the two sides of the certificate are compared with the same
  grouping, which is the one both programs use.

  The row count R is a parameter: a block of rows of the layer of a tall matrix is the layer of that block of rows
  (`layer_rows`), because an entry of the result reads only its own row of `a` and of `h`.

  The remaining lemmas read, at an index (p, q), the two ways a program spells the product with a transposed right
  factor — a product into a zero accumulator, and a product with no accumulator — as the plain sum over k.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«175697_j35802847379700_1_alg».proof.Proof.LibPlainDot

noncomputable section

namespace SageLayer

open Idealize.ShloMosaic Idealize.ShloMosaic.ValueIdx

variable {R : Nat}

/-- A matrix of extended reals with `r` rows and `c` columns. -/
abbrev Mat (r c : Nat) : Type := (⟨2, ![r, c]⟩ : Shape).Idx → EReal

/-- The zero the rectifier clips at: the value of the all-zero 32-bit pattern. -/
abbrev zero32 : EReal := Ideal.ofBits .f32 0x00000000#32

/-- Entry (p, q) of a layer before the clip. -/
def entry (a h : Mat R 128) (wl wr : Mat 128 128) (b : Fin 128 → EReal) (p : Fin R) (q : Fin 128) : EReal :=
  (∑ k : Fin 128, a (ix2 p k) * wl (ix2 q k) + b q) + ∑ k : Fin 128, h (ix2 p k) * wr (ix2 q k)

/-- The layer: every entry, clipped below at zero when `relu` is set. -/
def layer (relu : Bool) (a h : Mat R 128) (wl wr : Mat 128 128) (b : Fin 128 → EReal) : Mat R 128 := fun j =>
  bif relu then max (entry a h wl wr b (j 0) (j 1)) zero32 else entry a h wl wr b (j 0) (j 1)

theorem layer_true_apply (a h : Mat R 128) (wl wr : Mat 128 128) (b : Fin 128 → EReal) (p : Fin R) (q : Fin 128) :
    layer true a h wl wr b (ix2 p q) = max (entry a h wl wr b p q) zero32 := rfl

theorem layer_false_apply (a h : Mat R 128) (wl wr : Mat 128 128) (b : Fin 128 → EReal) (p : Fin R) (q : Fin 128) :
    layer false a h wl wr b (ix2 p q) = entry a h wl wr b p q := rfl

/-- An entry reads only its own row of the two tall operands: if rows `p` of `a`, `h` are rows `p'` of `a'`, `h'`,
    the entries at (p, q) and (p', q) agree. -/
theorem entry_congr_rows {R' : Nat} (a h : Mat R 128) (a' h' : Mat R' 128) (wl wr : Mat 128 128) (b : Fin 128 → EReal)
    (p : Fin R) (p' : Fin R') (q : Fin 128)
    (ha : ∀ k : Fin 128, a (ix2 p k) = a' (ix2 p' k)) (hh : ∀ k : Fin 128, h (ix2 p k) = h' (ix2 p' k)) :
    entry a h wl wr b p q = entry a' h' wl wr b p' q := by
  unfold entry
  rw [Finset.sum_congr rfl fun k _ => congrArg (· * wl (ix2 q k)) (ha k),
    Finset.sum_congr rfl fun k _ => congrArg (· * wr (ix2 q k)) (hh k)]

/-- The same for the layer. -/
theorem layer_congr_rows {R' : Nat} (relu : Bool) (a h : Mat R 128) (a' h' : Mat R' 128) (wl wr : Mat 128 128) (b : Fin 128 → EReal)
    (p : Fin R) (p' : Fin R') (q : Fin 128)
    (ha : ∀ k : Fin 128, a (ix2 p k) = a' (ix2 p' k)) (hh : ∀ k : Fin 128, h (ix2 p k) = h' (ix2 p' k)) :
    layer relu a h wl wr b (ix2 p q) = layer relu a' h' wl wr b (ix2 p' q) := by
  cases relu
  · exact entry_congr_rows a h a' h' wl wr b p p' q ha hh
  · exact congrArg (max · zero32) (entry_congr_rows a h a' h' wl wr b p p' q ha hh)

/-- A product into a zero accumulator whose right factor is a transposed square matrix, at (p, q): the sum over k
    of x(p,k) * w(q,k). The operands may be of any float format: at the extended reals a format is not seen. -/
theorem matmul_tr_apply {φ₁ φ₂ : FTy} (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![R, 128]⟩ φ₁) (w : FVec Ideal ⟨2, ![128, 128]⟩ φ₂)
    (hT : (⟨2, ![128, 128]⟩ : Shape).Transposes [1, 0] ⟨2, ![128, 128]⟩) (p : Fin R) (q : Fin 128) :
    matmul d none x (transpose ⟨2, ![128, 128]⟩ [1, 0] w hT) (constant ⟨2, ![R, 128]⟩ .f32 0x00000000#32) (ix2 p q)
      = ∑ k : Fin 128, x (ix2 p k) * w (ix2 q k) := by
  refine (Ideal.matmul_constant_zero_apply d none x _ (ix2 p q)).trans ?_
  refine (PlainDot.sum_eq (M := EReal) d hlb hln hlc hrb hrn hrc x (transpose ⟨2, ![128, 128]⟩ [1, 0] w hT) p q).trans ?_
  exact Finset.sum_congr rfl fun k _ => congrArg (x (ix2 p k) * ·) (transpose_ix2_apply w hT k q)

/-- The same for a product with no accumulator. -/
theorem dot_tr_apply {φ₁ φ₂ : FTy} (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![R, 128]⟩ φ₁) (w : FVec Ideal ⟨2, ![128, 128]⟩ φ₂)
    (hT : (⟨2, ![128, 128]⟩ : Shape).Transposes [1, 0] ⟨2, ![128, 128]⟩) (p : Fin R) (q : Fin 128) :
    Host.dotGeneral d none x (transpose ⟨2, ![128, 128]⟩ [1, 0] w hT) (ix2 p q)
      = ∑ k : Fin 128, x (ix2 p k) * w (ix2 q k) := by
  refine (Ideal.dotGeneral_apply d none .single x _ (ix2 p q)).trans ?_
  refine (PlainDot.sum_eq (M := EReal) d hlb hln hlc hrb hrn hrc x (transpose ⟨2, ![128, 128]⟩ [1, 0] w hT) p q).trans ?_
  exact Finset.sum_congr rfl fun k _ => congrArg (x (ix2 p k) * ·) (transpose_ix2_apply w hT k q)

end SageLayer

end
-- ==== Proof.KLayer0.lean ====
/-
  What pallas call 0 of the kernel program leaves in its output array, at the extended reals.

  The call is row-tiled: grid point t (of 50) stages rows 2000·t … 2000·t + 1999 of the two tall operands (the
  neighbourhood means and the node features, each 100000 × 128), the whole of the two square weight matrices and the whole
  one-row bias, and writes back the same 2000 rows of the result.  Its body computes, on the staged block, exactly one
  layer (`SageLayer.layer`, with its rectifier) of those 2000 rows: the two products with a transposed right factor
  into zero accumulators are the plain sums over the shared index, the changes of float format are invisible, the bias
  row is repeated down the rows.

  An entry of a layer reads only its own row of the tall operands, so the layer of rows 2000·t … of the arrays, read at
  row p, is the layer of the whole arrays read at row 2000·t + p (`SageLayer.layer_congr_rows`).  Hence what point t
  writes back is block t of the layer of the whole arrays (`flushed_eq`), the fifty blocks cover every row
  (`cover`: row r lies in block r / 2000), and the output array ends as that layer (`final`).

  Everything is stated at a parameter `V`, the core's buffer contents when the call is entered.
-/
import proofs.«175697_j35802847379700_1_alg».proof.Proof.Gen.KernelIdeal.Frame
import proofs.«175697_j35802847379700_1_alg».proof.Proof.Layer

set_option maxRecDepth 16384

noncomputable section

namespace Cert.KernelIdeal.LayerValue0

open Cert.KernelIdeal Cert.KernelIdeal.Gen
open Idealize.ShloMosaic Idealize.ShloMosaic.TcCoe Idealize.ShloMosaic.ValueIdx Idealize.SL.Sem
open Idealize.ShloMosaic.Pipeline (Dat Cfg Window)
open SageLayer

variable (V : (c : Dev nD) → (b : Ref sig .tc) → Buf (Elt Ideal) ((c : Thread nD τ).loc b))

theorem hz : (![0, 0] : Fin 2 → Nat) = fun _ => 0 := funext fun a => by fin_cases a <;> rfl

/-! ## The body's stored value is one layer of its loaded blocks -/

theorem pay_eq (x0 x1 : Vec Ideal S2000x128 .f32) (wl wr : Vec Ideal S128x128 .f32) (b : Vec Ideal S1x128 .f32) :
    k0_pay1 (F := Ideal) x0 x1 wl wr b = layer true x0 x1 wl wr (fun q => b (ix2 (0 : Fin 1) q)) := by
  funext j
  obtain ⟨p, q, rfl⟩ : ∃ (p : Fin 2000) (q : Fin 128), j = ix2 p q := ⟨j 0, j 1, eq_ix2 j⟩
  rw [layer_true_apply]
  unfold k0_pay1 entry
  simp only [maximumf_apply, broadcast_apply, addf_apply]
  rw [matmul_tr_apply dot_S2000x128_S128x128_S2000x128_1_0_0_1_n_n rfl rfl rfl rfl rfl rfl,
    matmul_tr_apply dot_S2000x128_S128x128_S2000x128_1_0_0_1_n_n rfl rfl rfl rfl rfl rfl,
    broadcastTo_1b_ab_apply]
  simp only [truncf_apply, shapeCast_self]
  rfl

/-! ## The staged blocks and the arrays, at their literal types -/

abbrev arrA (c : Dev nD) : Vec Ideal S100000x128 .f32 := V c (Pipeline.arrRef spec0 0)
abbrev arrH (c : Dev nD) : Vec Ideal S100000x128 .f32 := V c (Pipeline.arrRef spec0 1)
abbrev arrWl (c : Dev nD) : Vec Ideal S128x128 .f32 := V c (Pipeline.arrRef spec0 2)
abbrev arrB (c : Dev nD) : Vec Ideal S1x128 .f32 := V c (Pipeline.arrRef spec0 3)
abbrev arrWr (c : Dev nD) : Vec Ideal S128x128 .f32 := V c (Pipeline.arrRef spec0 4)

abbrev blkA (c : Dev nD) (t : Fin cfg0.N) : Vec Ideal S2000x128 .f32 := iblk0 V c 0 t
abbrev blkH (c : Dev nD) (t : Fin cfg0.N) : Vec Ideal S2000x128 .f32 := iblk0 V c 1 t
abbrev blkWl (c : Dev nD) (t : Fin cfg0.N) : Vec Ideal S128x128 .f32 := iblk0 V c 2 t
abbrev blkB (c : Dev nD) (t : Fin cfg0.N) : Vec Ideal S1x128 .f32 := iblk0 V c 3 t
abbrev blkWr (c : Dev nD) (t : Fin cfg0.N) : Vec Ideal S128x128 .f32 := iblk0 V c 4 t

/-- The layer of the whole arrays as the call finds them. -/
def G (c : Dev nD) : Vec Ideal S100000x128 .f32 :=
  layer true (arrA V c) (arrH V c) (arrWl V c) (arrWr V c) (fun q => arrB V c (ix2 (0 : Fin 1) q))

/-! ## Where each window's block sits -/

/-- The printed index maps over the grid: the two tall inputs and the output are at block row t, column block 0; the
    weights and the bias are at block (0, 0); and there are fifty points. -/
theorem idx_facts : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `2000·t + p` of a 100000-row array. -/
abbrev row (t : Fin cfg0.N) (p : Fin 2000) : Fin 100000 :=
  ⟨2000 * t.val + p.val, by have := (idx_facts t).1; have := p.isLt; omega⟩

theorem embA (t : Fin cfg0.N) (p : Fin 2000) (k : Fin 128) :
    ((cfg0.win 0).blk t).view.emb (ix2 p k) = ix2 (row t p) k := by
  obtain ⟨h50, a0, a1, -⟩ := idx_facts t
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

theorem embH (t : Fin cfg0.N) (p : Fin 2000) (k : Fin 128) :
    ((cfg0.win 1).blk t).view.emb (ix2 p k) = ix2 (row t p) k := by
  obtain ⟨h50, -, -, a0, a1, -⟩ := idx_facts t
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

theorem embWl (t : Fin cfg0.N) (y : S128x128.Idx) : ((cfg0.win 2).blk t).view.emb y = y := by
  obtain ⟨h50, -, -, -, -, a0, a1, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem embB (t : Fin cfg0.N) (y : S1x128.Idx) : ((cfg0.win 3).blk t).view.emb y = y := by
  obtain ⟨h50, -, -, -, -, -, -, a0, a1, -⟩ := idx_facts t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem embWr (t : Fin cfg0.N) (y : S128x128.Idx) : ((cfg0.win 4).blk t).view.emb y = y := by
  obtain ⟨h50, -, -, -, -, -, -, -, -, a0, a1, -⟩ := idx_facts t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem embO (t : Fin cfg0.N) (p : Fin 2000) (q : Fin 128) :
    ((cfg0.win 5).blk t).view.emb (ix2 p q) = ix2 (row t p) q := by
  obtain ⟨h50, -, -, -, -, -, -, -, -, -, -, a0, a1⟩ := idx_facts t
  funext a; apply Fin.ext
  match a with
  | ⟨0, _⟩ => show win0_5.index t (0 : Fin 2) * 2000 + 1 * p.val = 2000 * t.val + p.val; omega
  | ⟨1, _⟩ => show win0_5.index t (1 : Fin 2) * 128 + 1 * q.val = q.val; omega

/-! ## Each staged block read at an index -/

theorem blkA_apply (c : Dev nD) (t : Fin cfg0.N) (p : Fin 2000) (k : Fin 128) :
    blkA V c t (ix2 p k) = arrA V c (ix2 (row t p) k) := by
  show arrA V c (((cfg0.win 0).blk t).view.emb (ix2 p k)) = _
  rw [embA]

theorem blkH_apply (c : Dev nD) (t : Fin cfg0.N) (p : Fin 2000) (k : Fin 128) :
    blkH V c t (ix2 p k) = arrH V c (ix2 (row t p) k) := by
  show arrH V c (((cfg0.win 1).blk t).view.emb (ix2 p k)) = _
  rw [embH]

theorem blkWl_eq (c : Dev nD) (t : Fin cfg0.N) : blkWl V c t = arrWl V c := by
  funext y
  show arrWl V c (((cfg0.win 2).blk t).view.emb y) = _
  rw [embWl]

theorem blkB_eq (c : Dev nD) (t : Fin cfg0.N) : blkB V c t = arrB V c := by
  funext y
  show arrB V c (((cfg0.win 3).blk t).view.emb y) = _
  rw [embB]

theorem blkWr_eq (c : Dev nD) (t : Fin cfg0.N) : blkWr V c t = arrWr V c := by
  funext y
  show arrWr V c (((cfg0.win 4).blk t).view.emb y) = _
  rw [embWr]

/-! ## What a point writes back, the cover, and the array after the call -/

/-- WHAT POINT `t` WRITES BACK is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (blkA V c t) (blkH V c t) (blkWl V c t) (blkWr V c t) (blkB V c t) (ix2 p q)
    = G V c (((cfg0.win 5).blk t).view.emb (ix2 p q))
  rw [pay_eq, embO, blkWl_eq, blkWr_eq, blkB_eq]
  exact layer_congr_rows true (blkA V c t) (blkH V c t) (arrA V c) (arrH V c) (arrWl V c) (arrWr V c)
    (fun q => arrB V c (ix2 (0 : Fin 1) q)) p (row t p) q (fun k => blkA_apply V c t p k) (fun k => blkH_apply V c t p k)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v33).slice (win0_5.rect t)).set ↔ _
  rw [View.set_slice_whole, Rect.mem_set_unit]
  exact Iff.rfl

/-- Every index lies in the block of the point its row's quotient by 2000 names. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 2000, by rw [show cfg0.N = 50 from N_0]; omega⟩, flush0_5 _, ?_⟩
  rw [mem_blk]
  obtain ⟨-, -, -, -, -, -, -, -, -, -, -, a0, a1⟩ := idx_facts ⟨(i 0).val / 2000, by rw [show cfg0.N = 50 from N_0]; omega⟩
  intro a
  match a with
  | ⟨0, _⟩ =>
    show win0_5.index _ (0 : Fin 2) * 2000 ≤ (i 0).val ∧ (i 0).val < win0_5.index _ (0 : Fin 2) * 2000 + 2000
    rw [a0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [a1]; omega

/-- THE OUTPUT ARRAY after the call: one layer of the arrays the call found. -/
theorem final (c : Dev nD) : (dat0 V c).arrAt 5 cfg0.N = G V c :=
  (dat0 V c).arrAt_eq_of_cover 5 (G V c) (fun t _ => flushed_eq V c t) (cover)

end Cert.KernelIdeal.LayerValue0

end
-- ==== Proof.KLayer1.lean ====
/-
  What pallas call 1 of the kernel program leaves in its output array, at the extended reals.

  The call is row-tiled: grid point t (of 50) stages rows 2000·t … 2000·t + 1999 of the two tall operands (the
  neighbourhood means and the node features, each 100000 × 128), the whole of the two square weight matrices and the whole
  one-row bias, and writes back the same 2000 rows of the result.  Its body computes, on the staged block, exactly one
  layer (`SageLayer.layer`, with its rectifier) of those 2000 rows: the two products with a transposed right factor
  into zero accumulators are the plain sums over the shared index, the changes of float format are invisible, the bias
  row is repeated down the rows.

  An entry of a layer reads only its own row of the tall operands, so the layer of rows 2000·t … of the arrays, read at
  row p, is the layer of the whole arrays read at row 2000·t + p (`SageLayer.layer_congr_rows`).  Hence what point t
  writes back is block t of the layer of the whole arrays (`flushed_eq`), the fifty blocks cover every row
  (`cover`: row r lies in block r / 2000), and the output array ends as that layer (`final`).

  Everything is stated at a parameter `V`, the core's buffer contents when the call is entered.
-/
import proofs.«175697_j35802847379700_1_alg».proof.Proof.Gen.KernelIdeal.Frame
import proofs.«175697_j35802847379700_1_alg».proof.Proof.Layer

set_option maxRecDepth 16384

noncomputable section

namespace Cert.KernelIdeal.LayerValue1

open Cert.KernelIdeal Cert.KernelIdeal.Gen
open Idealize.ShloMosaic Idealize.ShloMosaic.TcCoe Idealize.ShloMosaic.ValueIdx Idealize.SL.Sem
open Idealize.ShloMosaic.Pipeline (Dat Cfg Window)
open SageLayer

variable (V : (c : Dev nD) → (b : Ref sig .tc) → Buf (Elt Ideal) ((c : Thread nD τ).loc b))

theorem hz : (![0, 0] : Fin 2 → Nat) = fun _ => 0 := funext fun a => by fin_cases a <;> rfl

/-! ## The body's stored value is one layer of its loaded blocks -/

theorem pay_eq (x0 x1 : Vec Ideal S2000x128 .f32) (wl wr : Vec Ideal S128x128 .f32) (b : Vec Ideal S1x128 .f32) :
    k1_pay1 (F := Ideal) x0 x1 wl wr b = layer true x0 x1 wl wr (fun q => b (ix2 (0 : Fin 1) q)) := by
  funext j
  obtain ⟨p, q, rfl⟩ : ∃ (p : Fin 2000) (q : Fin 128), j = ix2 p q := ⟨j 0, j 1, eq_ix2 j⟩
  rw [layer_true_apply]
  unfold k1_pay1 entry
  simp only [maximumf_apply, broadcast_apply, addf_apply]
  rw [matmul_tr_apply dot_S2000x128_S128x128_S2000x128_1_0_0_1_n_n rfl rfl rfl rfl rfl rfl,
    matmul_tr_apply dot_S2000x128_S128x128_S2000x128_1_0_0_1_n_n rfl rfl rfl rfl rfl rfl,
    broadcastTo_1b_ab_apply]
  simp only [truncf_apply, shapeCast_self]
  rfl

/-! ## The staged blocks and the arrays, at their literal types -/

abbrev arrA (c : Dev nD) : Vec Ideal S100000x128 .f32 := V c (Pipeline.arrRef spec1 0)
abbrev arrH (c : Dev nD) : Vec Ideal S100000x128 .f32 := V c (Pipeline.arrRef spec1 1)
abbrev arrWl (c : Dev nD) : Vec Ideal S128x128 .f32 := V c (Pipeline.arrRef spec1 2)
abbrev arrB (c : Dev nD) : Vec Ideal S1x128 .f32 := V c (Pipeline.arrRef spec1 3)
abbrev arrWr (c : Dev nD) : Vec Ideal S128x128 .f32 := V c (Pipeline.arrRef spec1 4)

abbrev blkA (c : Dev nD) (t : Fin cfg1.N) : Vec Ideal S2000x128 .f32 := iblk1 V c 0 t
abbrev blkH (c : Dev nD) (t : Fin cfg1.N) : Vec Ideal S2000x128 .f32 := iblk1 V c 1 t
abbrev blkWl (c : Dev nD) (t : Fin cfg1.N) : Vec Ideal S128x128 .f32 := iblk1 V c 2 t
abbrev blkB (c : Dev nD) (t : Fin cfg1.N) : Vec Ideal S1x128 .f32 := iblk1 V c 3 t
abbrev blkWr (c : Dev nD) (t : Fin cfg1.N) : Vec Ideal S128x128 .f32 := iblk1 V c 4 t

/-- The layer of the whole arrays as the call finds them. -/
def G (c : Dev nD) : Vec Ideal S100000x128 .f32 :=
  layer true (arrA V c) (arrH V c) (arrWl V c) (arrWr V c) (fun q => arrB V c (ix2 (0 : Fin 1) q))

/-! ## Where each window's block sits -/

/-- The printed index maps over the grid: the two tall inputs and the output are at block row t, column block 0; the
    weights and the bias are at block (0, 0); and there are fifty points. -/
theorem idx_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `2000·t + p` of a 100000-row array. -/
abbrev row (t : Fin cfg1.N) (p : Fin 2000) : Fin 100000 :=
  ⟨2000 * t.val + p.val, by have := (idx_facts t).1; have := p.isLt; omega⟩

theorem embA (t : Fin cfg1.N) (p : Fin 2000) (k : Fin 128) :
    ((cfg1.win 0).blk t).view.emb (ix2 p k) = ix2 (row t p) k := by
  obtain ⟨h50, a0, a1, -⟩ := idx_facts t
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

theorem embH (t : Fin cfg1.N) (p : Fin 2000) (k : Fin 128) :
    ((cfg1.win 1).blk t).view.emb (ix2 p k) = ix2 (row t p) k := by
  obtain ⟨h50, -, -, a0, a1, -⟩ := idx_facts t
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

theorem embWl (t : Fin cfg1.N) (y : S128x128.Idx) : ((cfg1.win 2).blk t).view.emb y = y := by
  obtain ⟨h50, -, -, -, -, a0, a1, -⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem embB (t : Fin cfg1.N) (y : S1x128.Idx) : ((cfg1.win 3).blk t).view.emb y = y := by
  obtain ⟨h50, -, -, -, -, -, -, a0, a1, -⟩ := idx_facts t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem embWr (t : Fin cfg1.N) (y : S128x128.Idx) : ((cfg1.win 4).blk t).view.emb y = y := by
  obtain ⟨h50, -, -, -, -, -, -, -, -, a0, a1, -⟩ := idx_facts t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem embO (t : Fin cfg1.N) (p : Fin 2000) (q : Fin 128) :
    ((cfg1.win 5).blk t).view.emb (ix2 p q) = ix2 (row t p) q := by
  obtain ⟨h50, -, -, -, -, -, -, -, -, -, -, a0, a1⟩ := idx_facts t
  funext a; apply Fin.ext
  match a with
  | ⟨0, _⟩ => show win1_5.index t (0 : Fin 2) * 2000 + 1 * p.val = 2000 * t.val + p.val; omega
  | ⟨1, _⟩ => show win1_5.index t (1 : Fin 2) * 128 + 1 * q.val = q.val; omega

/-! ## Each staged block read at an index -/

theorem blkA_apply (c : Dev nD) (t : Fin cfg1.N) (p : Fin 2000) (k : Fin 128) :
    blkA V c t (ix2 p k) = arrA V c (ix2 (row t p) k) := by
  show arrA V c (((cfg1.win 0).blk t).view.emb (ix2 p k)) = _
  rw [embA]

theorem blkH_apply (c : Dev nD) (t : Fin cfg1.N) (p : Fin 2000) (k : Fin 128) :
    blkH V c t (ix2 p k) = arrH V c (ix2 (row t p) k) := by
  show arrH V c (((cfg1.win 1).blk t).view.emb (ix2 p k)) = _
  rw [embH]

theorem blkWl_eq (c : Dev nD) (t : Fin cfg1.N) : blkWl V c t = arrWl V c := by
  funext y
  show arrWl V c (((cfg1.win 2).blk t).view.emb y) = _
  rw [embWl]

theorem blkB_eq (c : Dev nD) (t : Fin cfg1.N) : blkB V c t = arrB V c := by
  funext y
  show arrB V c (((cfg1.win 3).blk t).view.emb y) = _
  rw [embB]

theorem blkWr_eq (c : Dev nD) (t : Fin cfg1.N) : blkWr V c t = arrWr V c := by
  funext y
  show arrWr V c (((cfg1.win 4).blk t).view.emb y) = _
  rw [embWr]

/-! ## What a point writes back, the cover, and the array after the call -/

/-- WHAT POINT `t` WRITES BACK is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (blkA V c t) (blkH V c t) (blkWl V c t) (blkWr V c t) (blkB V c t) (ix2 p q)
    = G V c (((cfg1.win 5).blk t).view.emb (ix2 p q))
  rw [pay_eq, embO, blkWl_eq, blkWr_eq, blkB_eq]
  exact layer_congr_rows true (blkA V c t) (blkH V c t) (arrA V c) (arrH V c) (arrWl V c) (arrWr V c)
    (fun q => arrB V c (ix2 (0 : Fin 1) q)) p (row t p) q (fun k => blkA_apply V c t p k) (fun k => blkH_apply V c t p k)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- Every index lies in the block of the point its row's quotient by 2000 names. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 2000, by rw [show cfg1.N = 50 from N_1]; omega⟩, flush1_5 _, ?_⟩
  rw [mem_blk]
  obtain ⟨-, -, -, -, -, -, -, -, -, -, -, a0, a1⟩ := idx_facts ⟨(i 0).val / 2000, by rw [show cfg1.N = 50 from N_1]; omega⟩
  intro a
  match a with
  | ⟨0, _⟩ =>
    show win1_5.index _ (0 : Fin 2) * 2000 ≤ (i 0).val ∧ (i 0).val < win1_5.index _ (0 : Fin 2) * 2000 + 2000
    rw [a0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [a1]; omega

/-- THE OUTPUT ARRAY after the call: one layer of the arrays the call found. -/
theorem final (c : Dev nD) : (dat1 V c).arrAt 5 cfg1.N = G V c :=
  (dat1 V c).arrAt_eq_of_cover 5 (G V c) (fun t _ => flushed_eq V c t) (cover)

end Cert.KernelIdeal.LayerValue1

end
-- ==== Proof.KLayer2.lean ====
/-
  What pallas call 2 of the kernel program leaves in its output array, at the extended reals.

  The call is row-tiled: grid point t (of 50) stages rows 2000·t … 2000·t + 1999 of the two tall operands (the
  neighbourhood means and the node features, each 100000 × 128), the whole of the two square weight matrices and the whole
  one-row bias, and writes back the same 2000 rows of the result.  Its body computes, on the staged block, exactly one
  layer (`SageLayer.layer`, without a rectifier) of those 2000 rows: the two products with a transposed right factor
  into zero accumulators are the plain sums over the shared index, the changes of float format are invisible, the bias
  row is repeated down the rows.

  An entry of a layer reads only its own row of the tall operands, so the layer of rows 2000·t … of the arrays, read at
  row p, is the layer of the whole arrays read at row 2000·t + p (`SageLayer.layer_congr_rows`).  Hence what point t
  writes back is block t of the layer of the whole arrays (`flushed_eq`), the fifty blocks cover every row
  (`cover`: row r lies in block r / 2000), and the output array ends as that layer (`final`).

  Everything is stated at a parameter `V`, the core's buffer contents when the call is entered.
-/
import proofs.«175697_j35802847379700_1_alg».proof.Proof.Gen.KernelIdeal.Frame
import proofs.«175697_j35802847379700_1_alg».proof.Proof.Layer

set_option maxRecDepth 16384

noncomputable section

namespace Cert.KernelIdeal.LayerValue2

open Cert.KernelIdeal Cert.KernelIdeal.Gen
open Idealize.ShloMosaic Idealize.ShloMosaic.TcCoe Idealize.ShloMosaic.ValueIdx Idealize.SL.Sem
open Idealize.ShloMosaic.Pipeline (Dat Cfg Window)
open SageLayer

variable (V : (c : Dev nD) → (b : Ref sig .tc) → Buf (Elt Ideal) ((c : Thread nD τ).loc b))

theorem hz : (![0, 0] : Fin 2 → Nat) = fun _ => 0 := funext fun a => by fin_cases a <;> rfl

/-! ## The body's stored value is one layer of its loaded blocks -/

theorem pay_eq (x0 x1 : Vec Ideal S2000x128 .f32) (wl wr : Vec Ideal S128x128 .f32) (b : Vec Ideal S1x128 .f32) :
    k2_pay1 (F := Ideal) x0 x1 wl wr b = layer false x0 x1 wl wr (fun q => b (ix2 (0 : Fin 1) q)) := by
  funext j
  obtain ⟨p, q, rfl⟩ : ∃ (p : Fin 2000) (q : Fin 128), j = ix2 p q := ⟨j 0, j 1, eq_ix2 j⟩
  rw [layer_false_apply]
  unfold k2_pay1 entry
  simp only [addf_apply]
  rw [matmul_tr_apply dot_S2000x128_S128x128_S2000x128_1_0_0_1_n_n rfl rfl rfl rfl rfl rfl,
    matmul_tr_apply dot_S2000x128_S128x128_S2000x128_1_0_0_1_n_n rfl rfl rfl rfl rfl rfl,
    broadcastTo_1b_ab_apply]
  simp only [truncf_apply, shapeCast_self]

/-! ## The staged blocks and the arrays, at their literal types -/

abbrev arrA (c : Dev nD) : Vec Ideal S100000x128 .f32 := V c (Pipeline.arrRef spec2 0)
abbrev arrH (c : Dev nD) : Vec Ideal S100000x128 .f32 := V c (Pipeline.arrRef spec2 1)
abbrev arrWl (c : Dev nD) : Vec Ideal S128x128 .f32 := V c (Pipeline.arrRef spec2 2)
abbrev arrB (c : Dev nD) : Vec Ideal S1x128 .f32 := V c (Pipeline.arrRef spec2 3)
abbrev arrWr (c : Dev nD) : Vec Ideal S128x128 .f32 := V c (Pipeline.arrRef spec2 4)

abbrev blkA (c : Dev nD) (t : Fin cfg2.N) : Vec Ideal S2000x128 .f32 := iblk2 V c 0 t
abbrev blkH (c : Dev nD) (t : Fin cfg2.N) : Vec Ideal S2000x128 .f32 := iblk2 V c 1 t
abbrev blkWl (c : Dev nD) (t : Fin cfg2.N) : Vec Ideal S128x128 .f32 := iblk2 V c 2 t
abbrev blkB (c : Dev nD) (t : Fin cfg2.N) : Vec Ideal S1x128 .f32 := iblk2 V c 3 t
abbrev blkWr (c : Dev nD) (t : Fin cfg2.N) : Vec Ideal S128x128 .f32 := iblk2 V c 4 t

/-- The layer of the whole arrays as the call finds them. -/
def G (c : Dev nD) : Vec Ideal S100000x128 .f32 :=
  layer false (arrA V c) (arrH V c) (arrWl V c) (arrWr V c) (fun q => arrB V c (ix2 (0 : Fin 1) q))

/-! ## Where each window's block sits -/

/-- The printed index maps over the grid: the two tall inputs and the output are at block row t, column block 0; the
    weights and the bias are at block (0, 0); and there are fifty points. -/
theorem idx_facts : ∀ t : Fin cfg2.N, t.val < 50
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `2000·t + p` of a 100000-row array. -/
abbrev row (t : Fin cfg2.N) (p : Fin 2000) : Fin 100000 :=
  ⟨2000 * t.val + p.val, by have := (idx_facts t).1; have := p.isLt; omega⟩

theorem embA (t : Fin cfg2.N) (p : Fin 2000) (k : Fin 128) :
    ((cfg2.win 0).blk t).view.emb (ix2 p k) = ix2 (row t p) k := by
  obtain ⟨h50, a0, a1, -⟩ := idx_facts t
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

theorem embH (t : Fin cfg2.N) (p : Fin 2000) (k : Fin 128) :
    ((cfg2.win 1).blk t).view.emb (ix2 p k) = ix2 (row t p) k := by
  obtain ⟨h50, -, -, a0, a1, -⟩ := idx_facts t
  funext a; apply Fin.ext
  match a with
  | ⟨0, _⟩ => show win2_1.index t (0 : Fin 2) * 2000 + 1 * p.val = 2000 * t.val + p.val; omega
  | ⟨1, _⟩ => show win2_1.index t (1 : Fin 2) * 128 + 1 * k.val = k.val; omega

theorem embWl (t : Fin cfg2.N) (y : S128x128.Idx) : ((cfg2.win 2).blk t).view.emb y = y := by
  obtain ⟨h50, -, -, -, -, a0, a1, -⟩ := idx_facts t
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem embB (t : Fin cfg2.N) (y : S1x128.Idx) : ((cfg2.win 3).blk t).view.emb y = y := by
  obtain ⟨h50, -, -, -, -, -, -, a0, a1, -⟩ := idx_facts t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem embWr (t : Fin cfg2.N) (y : S128x128.Idx) : ((cfg2.win 4).blk t).view.emb y = y := by
  obtain ⟨h50, -, -, -, -, -, -, -, -, a0, a1, -⟩ := idx_facts t
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem embO (t : Fin cfg2.N) (p : Fin 2000) (q : Fin 128) :
    ((cfg2.win 5).blk t).view.emb (ix2 p q) = ix2 (row t p) q := by
  obtain ⟨h50, -, -, -, -, -, -, -, -, -, -, a0, a1⟩ := idx_facts t
  funext a; apply Fin.ext
  match a with
  | ⟨0, _⟩ => show win2_5.index t (0 : Fin 2) * 2000 + 1 * p.val = 2000 * t.val + p.val; omega
  | ⟨1, _⟩ => show win2_5.index t (1 : Fin 2) * 128 + 1 * q.val = q.val; omega

/-! ## Each staged block read at an index -/

theorem blkA_apply (c : Dev nD) (t : Fin cfg2.N) (p : Fin 2000) (k : Fin 128) :
    blkA V c t (ix2 p k) = arrA V c (ix2 (row t p) k) := by
  show arrA V c (((cfg2.win 0).blk t).view.emb (ix2 p k)) = _
  rw [embA]

theorem blkH_apply (c : Dev nD) (t : Fin cfg2.N) (p : Fin 2000) (k : Fin 128) :
    blkH V c t (ix2 p k) = arrH V c (ix2 (row t p) k) := by
  show arrH V c (((cfg2.win 1).blk t).view.emb (ix2 p k)) = _
  rw [embH]

theorem blkWl_eq (c : Dev nD) (t : Fin cfg2.N) : blkWl V c t = arrWl V c := by
  funext y
  show arrWl V c (((cfg2.win 2).blk t).view.emb y) = _
  rw [embWl]

theorem blkB_eq (c : Dev nD) (t : Fin cfg2.N) : blkB V c t = arrB V c := by
  funext y
  show arrB V c (((cfg2.win 3).blk t).view.emb y) = _
  rw [embB]

theorem blkWr_eq (c : Dev nD) (t : Fin cfg2.N) : blkWr V c t = arrWr V c := by
  funext y
  show arrWr V c (((cfg2.win 4).blk t).view.emb y) = _
  rw [embWr]

/-! ## What a point writes back, the cover, and the array after the call -/

/-- WHAT POINT `t` WRITES BACK is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (blkA V c t) (blkH V c t) (blkWl V c t) (blkWr V c t) (blkB V c t) (ix2 p q)
    = G V c (((cfg2.win 5).blk t).view.emb (ix2 p q))
  rw [pay_eq, embO, blkWl_eq, blkWr_eq, blkB_eq]
  exact layer_congr_rows false (blkA V c t) (blkH V c t) (arrA V c) (arrH V c) (arrWl V c) (arrWr V c)
    (fun q => arrB V c (ix2 (0 : Fin 1) q)) p (row t p) q (fun k => blkA_apply V c t p k) (fun k => blkH_apply V c t p k)

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v63).slice (win2_5.rect t)).set ↔ _
  rw [View.set_slice_whole, Rect.mem_set_unit]
  exact Iff.rfl

/-- Every index lies in the block of the point its row's quotient by 2000 names. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 2000, by rw [show cfg2.N = 50 from N_2]; omega⟩, flush2_5 _, ?_⟩
  rw [mem_blk]
  obtain ⟨-, -, -, -, -, -, -, -, -, -, -, a0, a1⟩ := idx_facts ⟨(i 0).val / 2000, by rw [show cfg2.N = 50 from N_2]; omega⟩
  intro a
  match a with
  | ⟨0, _⟩ =>
    show win2_5.index _ (0 : Fin 2) * 2000 ≤ (i 0).val ∧ (i 0).val < win2_5.index _ (0 : Fin 2) * 2000 + 2000
    rw [a0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [a1]; omega

/-- THE OUTPUT ARRAY after the call: one layer of the arrays the call found. -/
theorem final (c : Dev nD) : (dat2 V c).arrAt 5 cfg2.N = G V c :=
  (dat2 V c).arrAt_eq_of_cover 5 (G V c) (fun t _ => flushed_eq V c t) (cover)

end Cert.KernelIdeal.LayerValue2

end
-- ==== Proof.RefLayer.lean ====
/-
  The reference program's three layers, at the extended reals.

  The reference computes a layer on the host as: the product of the neighbourhood means with the transposed left weight
  matrix, plus the bias repeated down the rows, plus the product of the node features with the transposed right weight
  matrix; after the first two layers the result is clipped below at zero.  Read at row p and column q, each product with
  a transposed factor is the plain sum over the shared index, the bias (a vector made a one-row matrix and then repeated)
  is its entry q, and the clip's zero (a scalar repeated) is the zero pattern's value: exactly `SageLayer.layer`
  (`layer_relu_eq`, `layer_lin_eq`), with the same grouping of the two additions.

  Stated on the generated stages of the reference's run (its `val_…` functions of the program's arguments): the stage
  after each layer is the layer of the stage holding the neighbourhood means and the stage holding the node features.
-/
import proofs.«175697_j35802847379700_1_alg».proof.Proof.Gen.ReferenceIdeal.Read
import proofs.«175697_j35802847379700_1_alg».proof.Proof.Layer

noncomputable section

namespace Cert.ReferenceIdeal.LayerValue

open Cert.ReferenceIdeal Cert.ReferenceIdeal.Gen Cert.ReferenceIdeal.Read Idealize.ShloMosaic Idealize.ShloMosaic.ValueIdx SageLayer

/-- The bias, a vector made a one-row matrix and repeated down 100000 rows, at (p, q): the vector's entry q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  refine (broadcastInDim_apply _ bcast_S1x128_S100000x128_0_1 _ (ix2 p q) (ix2 (0 : Fin 1) q) (fun a => ?_)).trans
    (broadcastInDim_apply _ bcast_S128_S1x128_1 b (ix2 (0 : Fin 1) q) (ix1 q) (fun a => ?_))
  · match a with
    | ⟨0, _⟩ => rfl
    | ⟨1, _⟩ => rfl
  · match a with
    | ⟨0, _⟩ => rfl

/-- The clip's zero, a scalar repeated over the matrix, at any index: the zero pattern's value. -/
theorem zero_apply (p : Fin 100000) (q : Fin 128) :
    broadcastInDim S100000x128 ![] bcast_S_S100000x128 (constant (F := Ideal) S_ .f32 0x00000000#32) (ix2 p q) = zero32 :=
  broadcastInDim_apply _ bcast_S_S100000x128 _ (ix2 p q) ix0 (fun a => a.elim0)

/-- A layer without the clip, as the host operations spell it, is `layer false`. -/
theorem layer_lin_eq (A H : FVec Ideal S100000x128 .f32) (wl wr : FVec Ideal S128x128 .f32) (b : FVec Ideal S128 .f32) :
    addf (addf (Host.dotGeneral (φ₁ := .f32) (φ₂ := .f32) dot_S100000x128_S128x128_S100000x128_1_0_0_1_n_n none A (transpose S128x128 [1, 0] wl transposes_S128x128_S128x128_1_0))
        (broadcastInDim S100000x128 ![0, 1] bcast_S1x128_S100000x128_0_1 (broadcastInDim S1x128 ![1] bcast_S128_S1x128_1 b)))
        (Host.dotGeneral (φ₁ := .f32) (φ₂ := .f32) dot_S100000x128_S128x128_S100000x128_1_0_0_1_n_n none H (transpose S128x128 [1, 0] wr transposes_S128x128_S128x128_1_0))
    = layer false A H wl wr (fun q => b (ix1 q)) := by
  funext j
  obtain ⟨p, q, rfl⟩ : ∃ (p : Fin 100000) (q : Fin 128), j = ix2 p q := ⟨j 0, j 1, eq_ix2 j⟩
  rw [layer_false_apply]
  unfold entry
  simp only [addf_apply]
  rw [dot_tr_apply dot_S100000x128_S128x128_S100000x128_1_0_0_1_n_n rfl rfl rfl rfl rfl rfl,
    dot_tr_apply dot_S100000x128_S128x128_S100000x128_1_0_0_1_n_n rfl rfl rfl rfl rfl rfl, bias_apply]

/-- A layer with the clip, as the host operations spell it, is `layer true`. -/
theorem layer_relu_eq (A H : FVec Ideal S100000x128 .f32) (wl wr : FVec Ideal S128x128 .f32) (b : FVec Ideal S128 .f32) :
    maximumf (addf (addf (Host.dotGeneral (φ₁ := .f32) (φ₂ := .f32) dot_S100000x128_S128x128_S100000x128_1_0_0_1_n_n none A (transpose S128x128 [1, 0] wl transposes_S128x128_S128x128_1_0))
        (broadcastInDim S100000x128 ![0, 1] bcast_S1x128_S100000x128_0_1 (broadcastInDim S1x128 ![1] bcast_S128_S1x128_1 b)))
        (Host.dotGeneral (φ₁ := .f32) (φ₂ := .f32) dot_S100000x128_S128x128_S100000x128_1_0_0_1_n_n none H (transpose S128x128 [1, 0] wr transposes_S128x128_S128x128_1_0)))
      (broadcastInDim S100000x128 ![] bcast_S_S100000x128 (constant (F := Ideal) S_ .f32 0x00000000#32))
    = layer true A H wl wr (fun q => b (ix1 q)) := by
  funext j
  obtain ⟨p, q, rfl⟩ : ∃ (p : Fin 100000) (q : Fin 128), j = ix2 p q := ⟨j 0, j 1, eq_ix2 j⟩
  rw [layer_true_apply]
  unfold entry
  simp only [maximumf_apply, addf_apply]
  rw [dot_tr_apply dot_S100000x128_S128x128_S100000x128_1_0_0_1_n_n rfl rfl rfl rfl rfl rfl,
    dot_tr_apply dot_S100000x128_S128x128_S100000x128_1_0_0_1_n_n rfl rfl rfl rfl rfl rfl, bias_apply, zero_apply]

variable (x0 : (⟨S100000, .i32⟩ : BufTy).Contents (Elt Ideal)) (x1 : (⟨S2x800000, .i32⟩ : BufTy).Contents (Elt Ideal)) (x2 : (⟨S100000x128, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))

/-- After the first layer: the clipped layer of the means of the looked-up rows and the looked-up rows. -/
theorem layer1 :
    val_main_v40 (F := Ideal) x0 x1 x2 x3 x4 x5
      = layer true (val_main_v31 (F := Ideal) x0 x1 x2) (val_main_v6 (F := Ideal) x0 x2) x3 x5 (fun q => x4 (ix1 q)) :=
  layer_relu_eq _ _ x3 x5 x4

/-- After the second layer: the clipped layer of the means of the first layer's result and that result. -/
theorem layer2 :
    val_main_v62 (F := Ideal) x0 x1 x2 x3 x4 x5 x6 x7 x8
      = layer true (val_main_v53 (F := Ideal) x0 x1 x2 x3 x4 x5) (val_main_v40 (F := Ideal) x0 x1 x2 x3 x4 x5) x6 x8 (fun q => x7 (ix1 q)) :=
  layer_relu_eq _ _ x6 x8 x7

/-- The result: the unclipped layer of the means of the second layer's result and that result. -/
theorem layer3 :
    val_main_v83 (F := Ideal) x0 x1 x2 x3 x4 x5 x6 x7 x8 x9 x10 x11
      = layer false (val_main_v75 (F := Ideal) x0 x1 x2 x3 x4 x5 x6 x7 x8) (val_main_v62 (F := Ideal) x0 x1 x2 x3 x4 x5 x6 x7 x8) x9 x11 (fun q => x10 (ix1 q)) :=
  layer_lin_eq _ _ x9 x11 x10

end Cert.ReferenceIdeal.LayerValue

end
-- ==== Proof.KHost.lean ====
/-
  The kernel program's buffers at each boundary between its host stretches and its three pallas calls, at the extended
  reals, named by the stages of the reference's run.

  Outside the three calls the two programs apply the same host operations: the embedding lookup (negative indices
  wrapped by the table's height, then a row gather), the in-degree count and its reciprocal clipped at one, and before
  each layer the neighbourhood mean (gather the rows of the current features at the wrapped source indices, scatter-add
  them at the target indices, scale each row by the reciprocal degree).  So each buffer a pallas call reads is, on the
  kernel side, literally the term the reference's corresponding stage is defined as, once the buffers it was computed
  from are: the reading is by unfolding, never by evaluating.  The only buffers that are not host terms are the three
  calls' outputs; each is one layer of what the call found (the layer-value modules), and the reference's stage after
  that layer is the same layer of the same operands (`Cert.ReferenceIdeal.LayerValue`).

  The bias reaches a call as a one-row matrix (the vector recast), and the layer reads its entry (0, q): the vector's
  entry q.

  Conclusion (`out_eq`): after the last call the result buffer holds the reference's last stage, applied to the kernel
  program's own twelve arguments.
-/
import proofs.«175697_j35802847379700_1_alg».proof.Proof.Gen.KernelIdeal.Frame
import proofs.«175697_j35802847379700_1_alg».proof.Proof.Gen.ReferenceIdeal.Read
import proofs.«175697_j35802847379700_1_alg».proof.Proof.KLayer0
import proofs.«175697_j35802847379700_1_alg».proof.Proof.KLayer1
import proofs.«175697_j35802847379700_1_alg».proof.Proof.KLayer2
import proofs.«175697_j35802847379700_1_alg».proof.Proof.RefLayer
import Idealize.ShloMosaic.Lib.StableHlo.Run
import Idealize.ShloMosaic.Lib.ValueLayout

set_option maxRecDepth 16384

noncomputable section

namespace Cert.KernelIdeal.HostValue

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open SageLayer

variable (m : (ℓ : Loc nD τ sig) → Buf (Elt Ideal) ℓ) (ρ : Dev nD → PrngReg) (c : Dev nD)

/-! ## The twelve arguments as launched, at their literal types -/

abbrev a0 : (⟨S100000, .i32⟩ : BufTy).Contents (Elt Ideal) := m ((c : Thread nD τ).loc main_arg0)
abbrev a1 : (⟨S2x800000, .i32⟩ : BufTy).Contents (Elt Ideal) := m ((c : Thread nD τ).loc main_arg1)
abbrev a2 : (⟨S100000x128, .f32⟩ : BufTy).Contents (Elt Ideal) := m ((c : Thread nD τ).loc main_arg2)
abbrev a3 : (⟨S128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S128x128, .f32⟩ : BufTy).Contents (Elt Ideal) := m ((c : Thread nD τ).loc main_arg5)
abbrev a6 : (⟨S128x128, .f32⟩ : BufTy).Contents (Elt Ideal) := m ((c : Thread nD τ).loc main_arg6)
abbrev a7 : (⟨S128, .f32⟩ : BufTy).Contents (Elt Ideal) := m ((c : Thread nD τ).loc main_arg7)
abbrev a8 : (⟨S128x128, .f32⟩ : BufTy).Contents (Elt Ideal) := m ((c : Thread nD τ).loc main_arg8)
abbrev a9 : (⟨S128x128, .f32⟩ : BufTy).Contents (Elt Ideal) := m ((c : Thread nD τ).loc main_arg9)
abbrev a10 : (⟨S128, .f32⟩ : BufTy).Contents (Elt Ideal) := m ((c : Thread nD τ).loc main_arg10)
abbrev a11 : (⟨S128x128, .f32⟩ : BufTy).Contents (Elt Ideal) := m ((c : Thread nD τ).loc main_arg11)

/-! ## Region 0's entry: after the first host stretch -/

theorem w1_v6 : W1 m ρ c (Proc.devRef .tc main_v6) = val_main_v6 (F := Ideal) (a0 m c) (a2 m c) := by
  show StableHlo.after hostOps0 (W0 m ρ c) (Proc.devRef .tc main_v6) = _
  after_results_simp
  rfl
theorem w1_v31 : W1 m ρ c (Proc.devRef .tc main_v31) = val_main_v31 (F := Ideal) (a0 m c) (a1 m c) (a2 m c) := by
  show StableHlo.after hostOps0 (W0 m ρ c) (Proc.devRef .tc main_v31) = _
  after_results_simp
  rfl
theorem w1_v32 : W1 m ρ c (Proc.devRef .tc main_v32) = shapeCast S1x128 (a4 m c) shapeCasts_S128_S1x128 := by
  show StableHlo.after hostOps0 (W0 m ρ c) (Proc.devRef .tc main_v32) = _
  after_results_simp <;> rfl
theorem w1_v8 : W1 m ρ c (Proc.devRef .tc main_v8) = val_main_v8 (F := Ideal) (a1 m c) := by
  show StableHlo.after hostOps0 (W0 m ρ c) (Proc.devRef .tc main_v8) = _
  after_results_simp
  rfl
theorem w1_v10 : W1 m ρ c (Proc.devRef .tc main_v10) = val_main_v10 (F := Ideal) (a1 m c) := by
  show StableHlo.after hostOps0 (W0 m ρ c) (Proc.devRef .tc main_v10) = _
  after_results_simp
  rfl
theorem w1_v18 : W1 m ρ c (Proc.devRef .tc main_v18) = val_main_v18 (F := Ideal) (a1 m c) := by
  show StableHlo.after hostOps0 (W0 m ρ c) (Proc.devRef .tc main_v18) = _
  after_results_simp
  rfl
theorem w1_arg3 : W1 m ρ c (Proc.devRef .tc main_arg3) = a3 m c := by
  show StableHlo.after hostOps0 (W0 m ρ c) (Proc.devRef .tc main_arg3) = _
  after_results_simp <;> rfl
theorem w1_arg5 : W1 m ρ c (Proc.devRef .tc main_arg5) = a5 m c := by
  show StableHlo.after hostOps0 (W0 m ρ c) (Proc.devRef .tc main_arg5) = _
  after_results_simp <;> rfl
theorem w1_arg6 : W1 m ρ c (Proc.devRef .tc main_arg6) = a6 m c := by
  show StableHlo.after hostOps0 (W0 m ρ c) (Proc.devRef .tc main_arg6) = _
  after_results_simp <;> rfl
theorem w1_arg7 : W1 m ρ c (Proc.devRef .tc main_arg7) = a7 m c := by
  show StableHlo.after hostOps0 (W0 m ρ c) (Proc.devRef .tc main_arg7) = _
  after_results_simp <;> rfl
theorem w1_arg8 : W1 m ρ c (Proc.devRef .tc main_arg8) = a8 m c := by
  show StableHlo.after hostOps0 (W0 m ρ c) (Proc.devRef .tc main_arg8) = _
  after_results_simp <;> rfl
theorem w1_arg9 : W1 m ρ c (Proc.devRef .tc main_arg9) = a9 m c := by
  show StableHlo.after hostOps0 (W0 m ρ c) (Proc.devRef .tc main_arg9) = _
  after_results_simp <;> rfl
theorem w1_arg10 : W1 m ρ c (Proc.devRef .tc main_arg10) = a10 m c := by
  show StableHlo.after hostOps0 (W0 m ρ c) (Proc.devRef .tc main_arg10) = _
  after_results_simp <;> rfl
theorem w1_arg11 : W1 m ρ c (Proc.devRef .tc main_arg11) = a11 m c := by
  show StableHlo.after hostOps0 (W0 m ρ c) (Proc.devRef .tc main_arg11) = _
  after_results_simp <;> rfl

/-! ## Region 0's exit -/

/-- Call 0's output: the reference's stage after the first layer. -/
theorem w2_out : W2 m ρ c (Proc.devRef .tc main_v33) = val_main_v40 (F := Ideal) (a0 m c) (a1 m c) (a2 m c) (a3 m c) (a4 m c) (a5 m c) := by
  refine (W2_arr m ρ c 5).trans ?_
  rw [LayerValue0.final]
  show layer true (W1 m ρ c (Proc.devRef .tc main_v31)) (W1 m ρ c (Proc.devRef .tc main_v6)) (W1 m ρ c (Proc.devRef .tc main_arg3))
    (W1 m ρ c (Proc.devRef .tc main_arg5)) (fun q => W1 m ρ c (Proc.devRef .tc main_v32) (ix2 (0 : Fin 1) q)) = _
  rw [w1_v31, w1_v6, w1_arg3, w1_arg5, w1_v32, Cert.ReferenceIdeal.LayerValue.layer1]
  simp only [shapeCast_a_1a_apply]

theorem w2_v8 : W2 m ρ c (Proc.devRef .tc main_v8) = val_main_v8 (F := Ideal) (a1 m c) :=
  (W2_of_ne m ρ c main_v8 (by decide)).trans (w1_v8 m ρ c)
theorem w2_v10 : W2 m ρ c (Proc.devRef .tc main_v10) = val_main_v10 (F := Ideal) (a1 m c) :=
  (W2_of_ne m ρ c main_v10 (by decide)).trans (w1_v10 m ρ c)
theorem w2_v18 : W2 m ρ c (Proc.devRef .tc main_v18) = val_main_v18 (F := Ideal) (a1 m c) :=
  (W2_of_ne m ρ c main_v18 (by decide)).trans (w1_v18 m ρ c)
theorem w2_arg6 : W2 m ρ c (Proc.devRef .tc main_arg6) = a6 m c :=
  (W2_of_ne m ρ c main_arg6 (by decide)).trans (w1_arg6 m ρ c)
theorem w2_arg7 : W2 m ρ c (Proc.devRef .tc main_arg7) = a7 m c :=
  (W2_of_ne m ρ c main_arg7 (by decide)).trans (w1_arg7 m ρ c)
theorem w2_arg8 : W2 m ρ c (Proc.devRef .tc main_arg8) = a8 m c :=
  (W2_of_ne m ρ c main_arg8 (by decide)).trans (w1_arg8 m ρ c)
theorem w2_arg9 : W2 m ρ c (Proc.devRef .tc main_arg9) = a9 m c :=
  (W2_of_ne m ρ c main_arg9 (by decide)).trans (w1_arg9 m ρ c)
theorem w2_arg10 : W2 m ρ c (Proc.devRef .tc main_arg10) = a10 m c :=
  (W2_of_ne m ρ c main_arg10 (by decide)).trans (w1_arg10 m ρ c)
theorem w2_arg11 : W2 m ρ c (Proc.devRef .tc main_arg11) = a11 m c :=
  (W2_of_ne m ρ c main_arg11 (by decide)).trans (w1_arg11 m ρ c)

/-! ## Region 1's entry: after the second host stretch -/

theorem w3_v46 : W3 m ρ c (Proc.devRef .tc main_v46) = val_main_v53 (F := Ideal) (a0 m c) (a1 m c) (a2 m c) (a3 m c) (a4 m c) (a5 m c) := by
  show StableHlo.after hostOps1 (W2 m ρ c) (Proc.devRef .tc main_v46) = _
  after_results_simp
  rw [w2_out, w2_v8, w2_v10, w2_v18]
  rfl
theorem w3_v33 : W3 m ρ c (Proc.devRef .tc main_v33) = val_main_v40 (F := Ideal) (a0 m c) (a1 m c) (a2 m c) (a3 m c) (a4 m c) (a5 m c) := by
  show StableHlo.after hostOps1 (W2 m ρ c) (Proc.devRef .tc main_v33) = _
  after_results_simp
  exact w2_out m ρ c
theorem w3_v47 : W3 m ρ c (Proc.devRef .tc main_v47) = shapeCast S1x128 (a7 m c) shapeCasts_S128_S1x128 := by
  show StableHlo.after hostOps1 (W2 m ρ c) (Proc.devRef .tc main_v47) = _
  after_results_simp
  rw [w2_arg7]
  rfl
theorem w3_v8 : W3 m ρ c (Proc.devRef .tc main_v8) = val_main_v8 (F := Ideal) (a1 m c) := by
  show StableHlo.after hostOps1 (W2 m ρ c) (Proc.devRef .tc main_v8) = _
  after_results_simp
  exact w2_v8 m ρ c
theorem w3_v10 : W3 m ρ c (Proc.devRef .tc main_v10) = val_main_v10 (F := Ideal) (a1 m c) := by
  show StableHlo.after hostOps1 (W2 m ρ c) (Proc.devRef .tc main_v10) = _
  after_results_simp
  exact w2_v10 m ρ c
theorem w3_v18 : W3 m ρ c (Proc.devRef .tc main_v18) = val_main_v18 (F := Ideal) (a1 m c) := by
  show StableHlo.after hostOps1 (W2 m ρ c) (Proc.devRef .tc main_v18) = _
  after_results_simp
  exact w2_v18 m ρ c
theorem w3_arg6 : W3 m ρ c (Proc.devRef .tc main_arg6) = a6 m c := by
  show StableHlo.after hostOps1 (W2 m ρ c) (Proc.devRef .tc main_arg6) = _
  after_results_simp
  exact w2_arg6 m ρ c
theorem w3_arg8 : W3 m ρ c (Proc.devRef .tc main_arg8) = a8 m c := by
  show StableHlo.after hostOps1 (W2 m ρ c) (Proc.devRef .tc main_arg8) = _
  after_results_simp
  exact w2_arg8 m ρ c
theorem w3_arg9 : W3 m ρ c (Proc.devRef .tc main_arg9) = a9 m c := by
  show StableHlo.after hostOps1 (W2 m ρ c) (Proc.devRef .tc main_arg9) = _
  after_results_simp
  exact w2_arg9 m ρ c
theorem w3_arg10 : W3 m ρ c (Proc.devRef .tc main_arg10) = a10 m c := by
  show StableHlo.after hostOps1 (W2 m ρ c) (Proc.devRef .tc main_arg10) = _
  after_results_simp
  exact w2_arg10 m ρ c
theorem w3_arg11 : W3 m ρ c (Proc.devRef .tc main_arg11) = a11 m c := by
  show StableHlo.after hostOps1 (W2 m ρ c) (Proc.devRef .tc main_arg11) = _
  after_results_simp
  exact w2_arg11 m ρ c

/-! ## Region 1's exit -/

/-- Call 1's output: the reference's stage after the second layer. -/
theorem w4_out : W4 m ρ c (Proc.devRef .tc main_v48) = val_main_v62 (F := Ideal) (a0 m c) (a1 m c) (a2 m c) (a3 m c) (a4 m c) (a5 m c) (a6 m c) (a7 m c) (a8 m c) := by
  refine (W4_arr m ρ c 5).trans ?_
  rw [LayerValue1.final]
  show layer true (W3 m ρ c (Proc.devRef .tc main_v46)) (W3 m ρ c (Proc.devRef .tc main_v33)) (W3 m ρ c (Proc.devRef .tc main_arg6))
    (W3 m ρ c (Proc.devRef .tc main_arg8)) (fun q => W3 m ρ c (Proc.devRef .tc main_v47) (ix2 (0 : Fin 1) q)) = _
  rw [w3_v46, w3_v33, w3_arg6, w3_arg8, w3_v47, Cert.ReferenceIdeal.LayerValue.layer2]
  simp only [shapeCast_a_1a_apply]

theorem w4_v8 : W4 m ρ c (Proc.devRef .tc main_v8) = val_main_v8 (F := Ideal) (a1 m c) :=
  (W4_of_ne m ρ c main_v8 (by decide)).trans (w3_v8 m ρ c)
theorem w4_v10 : W4 m ρ c (Proc.devRef .tc main_v10) = val_main_v10 (F := Ideal) (a1 m c) :=
  (W4_of_ne m ρ c main_v10 (by decide)).trans (w3_v10 m ρ c)
theorem w4_v18 : W4 m ρ c (Proc.devRef .tc main_v18) = val_main_v18 (F := Ideal) (a1 m c) :=
  (W4_of_ne m ρ c main_v18 (by decide)).trans (w3_v18 m ρ c)
theorem w4_arg9 : W4 m ρ c (Proc.devRef .tc main_arg9) = a9 m c :=
  (W4_of_ne m ρ c main_arg9 (by decide)).trans (w3_arg9 m ρ c)
theorem w4_arg10 : W4 m ρ c (Proc.devRef .tc main_arg10) = a10 m c :=
  (W4_of_ne m ρ c main_arg10 (by decide)).trans (w3_arg10 m ρ c)
theorem w4_arg11 : W4 m ρ c (Proc.devRef .tc main_arg11) = a11 m c :=
  (W4_of_ne m ρ c main_arg11 (by decide)).trans (w3_arg11 m ρ c)

/-! ## Region 2's entry: after the third host stretch -/

theorem w5_v61 : W5 m ρ c (Proc.devRef .tc main_v61) = val_main_v75 (F := Ideal) (a0 m c) (a1 m c) (a2 m c) (a3 m c) (a4 m c) (a5 m c) (a6 m c) (a7 m c) (a8 m c) := by
  show StableHlo.after hostOps2 (W4 m ρ c) (Proc.devRef .tc main_v61) = _
  after_results_simp
  rw [w4_out, w4_v8, w4_v10, w4_v18]
  rfl
theorem w5_v48 : W5 m ρ c (Proc.devRef .tc main_v48) = val_main_v62 (F := Ideal) (a0 m c) (a1 m c) (a2 m c) (a3 m c) (a4 m c) (a5 m c) (a6 m c) (a7 m c) (a8 m c) := by
  show StableHlo.after hostOps2 (W4 m ρ c) (Proc.devRef .tc main_v48) = _
  after_results_simp
  exact w4_out m ρ c
theorem w5_v62 : W5 m ρ c (Proc.devRef .tc main_v62) = shapeCast S1x128 (a10 m c) shapeCasts_S128_S1x128 := by
  show StableHlo.after hostOps2 (W4 m ρ c) (Proc.devRef .tc main_v62) = _
  after_results_simp
  rw [w4_arg10]
  rfl
theorem w5_arg9 : W5 m ρ c (Proc.devRef .tc main_arg9) = a9 m c := by
  show StableHlo.after hostOps2 (W4 m ρ c) (Proc.devRef .tc main_arg9) = _
  after_results_simp
  exact w4_arg9 m ρ c
theorem w5_arg11 : W5 m ρ c (Proc.devRef .tc main_arg11) = a11 m c := by
  show StableHlo.after hostOps2 (W4 m ρ c) (Proc.devRef .tc main_arg11) = _
  after_results_simp
  exact w4_arg11 m ρ c

/-! ## Region 2's exit: the result -/

/-- THE RESULT BUFFER after the last call: the reference's last stage of the kernel program's own arguments. -/
theorem out_eq : W6 m ρ c (Proc.devRef .tc main_v63) = val_main_v83 (F := Ideal) (a0 m c) (a1 m c) (a2 m c) (a3 m c) (a4 m c) (a5 m c) (a6 m c) (a7 m c) (a8 m c) (a9 m c) (a10 m c) (a11 m c) := by
  refine (W6_arr m ρ c 5).trans ?_
  rw [LayerValue2.final]
  show layer false (W5 m ρ c (Proc.devRef .tc main_v61)) (W5 m ρ c (Proc.devRef .tc main_v48)) (W5 m ρ c (Proc.devRef .tc main_arg9))
    (W5 m ρ c (Proc.devRef .tc main_arg11)) (fun q => W5 m ρ c (Proc.devRef .tc main_v62) (ix2 (0 : Fin 1) q)) = _
  rw [w5_v61, w5_v48, w5_arg9, w5_arg11, w5_v62, Cert.ReferenceIdeal.LayerValue.layer3]
  simp only [shapeCast_a_1a_apply]

end Cert.KernelIdeal.HostValue

end
-- ==== Proof.lean ====
/-
  The certificate: a three-layer mean-aggregation graph network (100000 nodes, 800000 edges, 128 features), whose dense
  per-layer combine

      out = [max(·, 0)] ( (aggr · Wlᵀ + b) + h · Wrᵀ )

  runs as a row-tiled pallas call (fifty blocks of 2000 rows, operands rounded to a shorter float format on the way into
  the two products), against the plain host reference.

  Over the extended reals the rounding is invisible and both products are plain sums over the shared index, so a call's
  output array is one layer (`SageLayer.layer`) of the arrays it finds: each block of rows is the layer of that block of
  rows, and the fifty blocks cover the array (the layer-value modules of the three calls).  Everything else — the embedding
  lookup, the degree count, and before each layer the gather / scatter-add / scale that forms the neighbourhood means —
  is the same list of host operations in both programs, so the kernel program's buffers are, stage by stage, the
  reference's stages (`Cert.KernelIdeal.HostValue`), and the reference's stage after each layer is the same layer of
  the same operands (`Cert.ReferenceIdeal.LayerValue`).  No algebraic law beyond reading the two products as sums is
  used, and the sums, the bias and the clip are grouped alike on both sides, so the precondition (finite inputs) is
  never opened.

  The three frames: the two kernel programs' are the generated frame certificates; the reference's is its generated run
  with the result dropped.  The idealization rewrote nothing, so `preserves` is trivial.
-/
import proofs.«175697_j35802847379700_1_alg».proof.Defs
import proofs.«175697_j35802847379700_1_alg».proof.Proof.Gen.Kernel
import proofs.«175697_j35802847379700_1_alg».proof.Proof.Gen.Kernel.Skeleton
import proofs.«175697_j35802847379700_1_alg».proof.Proof.Gen.Kernel.Launch
import proofs.«175697_j35802847379700_1_alg».proof.Proof.Gen.Kernel.Points
import proofs.«175697_j35802847379700_1_alg».proof.Proof.Gen.Kernel.Frame
import proofs.«175697_j35802847379700_1_alg».proof.Proof.Gen.KernelIdeal
import proofs.«175697_j35802847379700_1_alg».proof.Proof.Gen.KernelIdeal.Skeleton
import proofs.«175697_j35802847379700_1_alg».proof.Proof.Gen.KernelIdeal.Launch
import proofs.«175697_j35802847379700_1_alg».proof.Proof.Gen.KernelIdeal.Points
import proofs.«175697_j35802847379700_1_alg».proof.Proof.Gen.KernelIdeal.Frame
import proofs.«175697_j35802847379700_1_alg».proof.Proof.Gen.ReferenceIdeal
import proofs.«175697_j35802847379700_1_alg».proof.Proof.Gen.ReferenceIdeal.Run
import proofs.«175697_j35802847379700_1_alg».proof.Proof.Gen.ReferenceIdeal.Read
import proofs.«175697_j35802847379700_1_alg».proof.Proof.Gen.Pre_finite_inputs
import proofs.«175697_j35802847379700_1_alg».proof.Proof.KernelRun
import proofs.«175697_j35802847379700_1_alg».proof.Proof.KHost
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the kernel program's arguments: the kernel program's
    by the boundary-by-boundary reading of its buffers, the reference's by its own run, the arguments agreeing. -/
theorem algebraic : Cert.algebraic_KernelIdeal_ReferenceIdeal := by
  intro m ρ m' ρ' _ hagree
  refine ⟨fun c => Cert.ReferenceIdeal.Read.val_main_v83 (F := Ideal)
      (Cert.KernelIdeal.HostValue.a0 m c) (Cert.KernelIdeal.HostValue.a1 m c) (Cert.KernelIdeal.HostValue.a2 m c)
      (Cert.KernelIdeal.HostValue.a3 m c) (Cert.KernelIdeal.HostValue.a4 m c) (Cert.KernelIdeal.HostValue.a5 m c)
      (Cert.KernelIdeal.HostValue.a6 m c) (Cert.KernelIdeal.HostValue.a7 m c) (Cert.KernelIdeal.HostValue.a8 m c)
      (Cert.KernelIdeal.HostValue.a9 m c) (Cert.KernelIdeal.HostValue.a10 m c) (Cert.KernelIdeal.HostValue.a11 m c), ?_, ?_⟩
  · exact (θ_run Cert.KernelIdeal.defs _ _).mono
      (fun r h c => ⟨(h c).1.trans (Cert.KernelIdeal.HostValue.out_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v83_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
